-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temper" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) (main_arg1 : FVec F S32x2048x128 .f32) (main_arg2 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  main_v13
-- ==== Kernel.lean ====
abbrev S32x2048x128 : Shape := ⟨3, ![32, 2048, 128]⟩
abbrev S32x2048x2048 : Shape := ⟨3, ![32, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x128, .f32⟩
  | .hbm, ⟨4, _⟩ => ⟨S32x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x2048, .f32⟩
  | .local _ .vmem, ⟨9, _⟩ => ⟨S1x256x2048, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S256x2048_S256 : S256x2048.Reduces [1] S256
  shapeCasts_S256_S256x1 : S256.ShapeCasts S256x1
  broadcasts_S256x1_S256x2048 : S256x1.Broadcasts S256x2048
  natLt_1_32 : 1 < 32
  shapeCasts_S256x128_S1x256x128 : S256x128.ShapeCasts S1x256x128
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S32x2048x128.size a
  hwx0_0 : ∀ i : grid0.Coords, EltTy.bits .f32 = 32 ∨ (Rect.block (s := S32x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S32x2048x128.size a
  hwx0_3 : ∀ i : grid0.Coords, EltTy.bits .f32 = 32 ∨ (Rect.block (s := S32x2048x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S32x2048x2048.size a
  hwx0_4 : ∀ i : grid0.Coords, EltTy.bits .f32 = 32 ∨ (Rect.block (s := S32x2048x2048) S1x256x2048.size (cc0_transform_4 i) (hinb0_4 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .i1⟩
  | .hbm, ⟨26, _⟩ => ⟨S32x2048x2048, .f32⟩
  | .hbm, ⟨27, _⟩ => ⟨S32x2048x2048, .f32⟩
  | .hbm, ⟨28, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.RowWta.lean ====
/-
  Winner-take-all attention on one row of scores, over the extended reals.

  A row `s` of 2048 scores is shifted by its maximum `rowMax s` (the fold of `max` from −∞), exponentiated and divided by
  the row's sum: the softmax `soft s`. Every entry of the softmax row that is not the row's maximum is then zeroed: the entry
  is multiplied by the 0/1 value of the one-bit word "entry = maximum of the softmax row" (`wta s`). Both programs compute
  exactly this function of a row; they differ in how the row of scores is scaled: one multiplies the dot product by the
  rational 1048576/11863283, the other divides it by the binary number 11863283/1048576, the same thing (`scale_eq`).
-/
import Idealize.ShloMosaic.PureOps.Ideal
import Idealize.ShloMosaic.PureOps.Ideal.Laws
import Idealize.ShloMosaic.Lib.ValueIdx

noncomputable section

namespace Cert.Wta

open Idealize.ShloMosaic Idealize.ShloMosaic.ValueIdx

/-- −∞, as the word both programs start their maxima from. -/
abbrev negInf : EReal := Ideal.ofBits .f32 0xFF800000#32

/-- That word denotes the bottom of the extended reals … -/
theorem negInf_eq_bot : negInf = ⊥ := by
  simp [negInf, Ideal.ofBits, Ideal.ieee]

/-- … so a maximum against it is the other operand. -/
theorem max_negInf (x : EReal) : max negInf x = x := by
  rw [negInf_eq_bot]; exact max_bot_left x

/-- The maximum of a row: the fold of `max` from −∞ over its 2048 entries. -/
def rowMax (s : Fin 2048 → EReal) : EReal := (Finset.univ : Finset (Fin 2048)).fold max negInf s

/-- The softmax of a row, entry `j`: `exp (s j − max s) / ∑ k, exp (s k − max s)`. -/
def soft (s : Fin 2048 → EReal) (j : Fin 2048) : EReal :=
  Ideal.div (Ideal.exp (s j - rowMax s)) (∑ k : Fin 2048, Ideal.exp (s k - rowMax s))

/-- A one-bit word as the extended real 0 or 1. -/
def bit01 (b : BitVec 1) : EReal := ((b.toNat : ℝ) : EReal)

/-- Winner-take-all: the softmax entry where it equals the softmax row's maximum, zero elsewhere. -/
def wta (s : Fin 2048 → EReal) (j : Fin 2048) : EReal :=
  soft s j * bit01 (Ideal.cmp .oeq (soft s j) (rowMax (soft s)))

/-- Widening a one-bit word to 32 bits and reading it signed gives the same 0 or 1 as reading the bit unsigned. -/
theorem toInt_setWidth_bit (b : BitVec 1) : (((b.setWidth 32).toInt : ℝ) : EReal) = bit01 b := by
  unfold bit01
  rcases BitVec.eq_zero_or_eq_one b with h | h <;> subst h <;> simp

/-- The divisor's word 0x413504F3 is the binary number 11863283 · 2⁻²⁰. -/
theorem ofBits_temper : Ideal.ofBits .f32 0x413504F3#32 = ((11863283 / 1048576 : ℝ) : EReal) := by
  simp [Ideal.ofBits, Ideal.ieee, -EReal.coe_mul]; norm_num

/-- THE SCALE LAW: multiplying by the rational 1048576/11863283 is dividing by the binary number 11863283/1048576, on every
    extended real (the divisor is a nonzero real, so the quotient is the product with its inverse). -/
theorem scale_eq (x : EReal) :
    x * ((1048576 / 11863283 : ℝ) : EReal) = Ideal.div x (Ideal.ofBits .f32 0x413504F3#32) := by
  rw [ofBits_temper, Ideal.div_coe (by norm_num : (11863283 / 1048576 : ℝ) ≠ 0)]
  norm_num

/-! ## The two result arrays as functions of the three argument arrays -/

/-- An argument array: batch × position × feature. -/
abbrev Arr3 : Type := (⟨3, ![32, 2048, 128]⟩ : Shape).Idx → EReal

/-- The score of query row `i` of batch `b` against key row `j`: their dot product over the 128 features, divided by the
    binary number 11863283/1048576. -/
def score (q k : Arr3) (b : Fin 32) (i j : Fin 2048) : EReal :=
  Ideal.div (∑ d : Fin 128, q (ix3 b i d) * k (ix3 b j d)) (Ideal.ofBits .f32 0x413504F3#32)

/-- The attention weights: entry (b, i, j) is the winner-take-all softmax of query row (b, i)'s scores, at key `j`. -/
def attnW (q k : Arr3) : (⟨3, ![32, 2048, 2048]⟩ : Shape).Idx → EReal :=
  fun I => wta (score q k (I 0) (I 1)) (I 2)

/-- The output: entry (b, i, d) is the weights' row (b, i) against column `d` of batch `b`'s values. -/
def attnO (q k v : Arr3) : (⟨3, ![32, 2048, 128]⟩ : Shape).Idx → EReal :=
  fun I => ∑ j : Fin 2048, attnW q k (ix3 (I 0) (I 1) j) * v (ix3 (I 0) j (I 2))

theorem attnW_ix3 (q k : Arr3) (b : Fin 32) (i j : Fin 2048) : attnW q k (ix3 b i j) = wta (score q k b i) j := rfl

theorem attnO_ix3 (q k v : Arr3) (b : Fin 32) (i : Fin 2048) (d : Fin 128) :
    attnO q k v (ix3 b i d) = ∑ j : Fin 2048, attnW q k (ix3 b i j) * v (ix3 b j d) := rfl

end Cert.Wta

end
-- ==== Proof.RefRows.lean ====
/-
  The reference, row by row: its attention weights and its output are the functions `attnW` and `attnO` of the argument arrays.

  The reference's values are followed at explicit coordinates, batch `b`, query row `i`, key `j`. With
  `r k` the score of row (b, i) against key `k` (the dot product of the two feature rows divided by the binary number
  11863283/1048576): the row's maximum is the fold of `max` from −∞ over `k` (one more maximum against −∞ changes nothing),
  the shifted exponential is `exp (r j − max r)`, the row's sum of exponentials starts from the constant 0, their quotient is
  the softmax entry `soft r j`, the softmax row's own maximum is again a fold of `max` from −∞, and the weight is the softmax
  entry times the 0/1 value of "entry = that maximum": `wta r j`. The output at (b, i, d) is the sum over the keys `j` of
  the weight at (b, i, j) times the value at (b, j, d).
-/
import proofs.«115531_j15857019257096_1_alg».proof.Proof.Gen.ReferenceIdeal.Read
import proofs.«115531_j15857019257096_1_alg».proof.Proof.RowWta

noncomputable section

namespace Cert.ReferenceIdeal.Rows

open Cert.ReferenceIdeal Cert.ReferenceIdeal.Gen Idealize.ShloMosaic Idealize.ShloMosaic.ValueIdx Cert.ReferenceIdeal.Read

/-- The score array at (b, i, j): the dot product of query row (b, i) and key row (b, j) over the 128 features, divided by the
    constant. -/
theorem v2_at (x0 x1 : (⟨S32x2048x128, .f32⟩ : BufTy).Contents (Elt Ideal)) (b : Fin 32) (i j : Fin 2048) :
    val_main_v2 (F := Ideal) x0 x1 (ix3 b i j) = Cert.Wta.score x0 x1 b i j := by
  rw [val_main_v2_apply, val_main_v0_apply, val_main_v1_apply, val_main_cst_apply]
  unfold Cert.Wta.score
  refine congrArg (fun s => Ideal.div s (Ideal.ofBits .f32 0x413504F3#32)) (Finset.sum_congr rfl fun d _ => ?_)
  have el : lidx_main_v0 (ix3 b i j) d = ix3 b i d :=
    funext fun a => Fin.ext (by match a with | ⟨0, _⟩ => rfl | ⟨1, _⟩ => rfl | ⟨2, _⟩ => rfl)
  have er : ridx_main_v0 (ix3 b i j) d = ix3 b j d :=
    funext fun a => Fin.ext (by match a with | ⟨0, _⟩ => rfl | ⟨1, _⟩ => rfl | ⟨2, _⟩ => rfl)
  rw [el, er]

/-- A maximum-reduction of a [32, 2048, 2048] array over its last axis, from −∞, at (b, i). -/
theorem reduce_max_at (y : (⟨S32x2048x2048, .f32⟩ : BufTy).Contents (Elt Ideal))
    (c : (⟨S_, .f32⟩ : BufTy).Contents (Elt Ideal)) (hc : ∀ z, c z = Cert.Wta.negInf) (b : Fin 32) (i : Fin 2048) :
    Host.reduce (FloatOps.maximumf (F := Ideal) (φ := .f32)) y c reducesTo_S32x2048x2048_S32x2048_d2 h_S_ (ix2 b i)
      = Cert.Wta.rowMax (fun k => y (ix3 b i k)) := by
  have h : S32x2048x2048.Reduces [2] S32x2048 := by decide
  refine (Host.reduce_eq_fold_single _ y c reducesTo_S32x2048x2048_S32x2048_d2 h h_S_ (ix2 b i)).trans ?_
  rw [hc]
  unfold Cert.Wta.rowMax
  refine Finset.fold_congr fun k _ => ?_
  exact congrArg y (funext fun a => Fin.ext (by match a with | ⟨0, _⟩ => rfl | ⟨1, _⟩ => rfl | ⟨2, _⟩ => rfl))

/-- The running maximum of the scores' row (b, i): the reduction from −∞, then one more maximum against −∞. -/
theorem v5_at (x0 x1 : (⟨S32x2048x128, .f32⟩ : BufTy).Contents (Elt Ideal)) (b : Fin 32) (i : Fin 2048) :
    val_main_v5 (F := Ideal) x0 x1 (ix2 b i)
      = Cert.Wta.rowMax (fun k => val_main_v2 (F := Ideal) x0 x1 (ix3 b i k)) := by
  rw [val_main_v5_apply, val_main_v4_apply, val_main_cst_1_apply]
  refine (Cert.Wta.max_negInf _).trans ?_
  unfold val_main_v3
  exact reduce_max_at (val_main_v2 (F := Ideal) x0 x1) (val_main_cst_0 (F := Ideal)) (fun _ => rfl) b i

/-- The row maximum broadcast back along the key axis. -/
theorem v7_at (x0 x1 : (⟨S32x2048x128, .f32⟩ : BufTy).Contents (Elt Ideal)) (b : Fin 32) (i j : Fin 2048) :
    val_main_v7 (F := Ideal) x0 x1 (ix3 b i j) = val_main_v5 (F := Ideal) x0 x1 (ix2 b i) := by
  rw [val_main_v7_apply, val_main_v6_apply]
  exact congrArg (val_main_v5 (F := Ideal) x0 x1)
    (funext fun a => Fin.ext (by match a with | ⟨0, _⟩ => rfl | ⟨1, _⟩ => rfl))

/-- The exponential of the shifted score. -/
theorem v9_at (x0 x1 : (⟨S32x2048x128, .f32⟩ : BufTy).Contents (Elt Ideal)) (b : Fin 32) (i j : Fin 2048) :
    val_main_v9 (F := Ideal) x0 x1 (ix3 b i j)
      = Ideal.exp (val_main_v2 (F := Ideal) x0 x1 (ix3 b i j)
          - Cert.Wta.rowMax (fun k => val_main_v2 (F := Ideal) x0 x1 (ix3 b i k))) := by
  rw [val_main_v9_apply, val_main_v8_apply, v7_at, v5_at]
  rfl

/-- The row's sum of exponentials: the reduction from the constant 0. -/
theorem v10_at (x0 x1 : (⟨S32x2048x128, .f32⟩ : BufTy).Contents (Elt Ideal)) (b : Fin 32) (i : Fin 2048) :
    val_main_v10 (F := Ideal) x0 x1 (ix2 b i)
      = ∑ k : Fin 2048, Ideal.exp (val_main_v2 (F := Ideal) x0 x1 (ix3 b i k)
          - Cert.Wta.rowMax (fun k => val_main_v2 (F := Ideal) x0 x1 (ix3 b i k))) := by
  rw [val_main_v10_apply, val_main_cst_2_apply]
  refine (congrArg (· + _) Ideal.ofBits_zero_f32).trans ?_
  rw [zero_add]
  refine Finset.sum_congr rfl fun k _ => ?_
  have e : idx_main_v10 (ix2 b i) k = ix3 b i k :=
    funext fun a => Fin.ext (by match a with | ⟨0, _⟩ => rfl | ⟨1, _⟩ => rfl | ⟨2, _⟩ => rfl)
  rw [e, v9_at]

/-- The row's sum broadcast back along the key axis. -/
theorem v12_at (x0 x1 : (⟨S32x2048x128, .f32⟩ : BufTy).Contents (Elt Ideal)) (b : Fin 32) (i j : Fin 2048) :
    val_main_v12 (F := Ideal) x0 x1 (ix3 b i j) = val_main_v10 (F := Ideal) x0 x1 (ix2 b i) := by
  rw [val_main_v12_apply, val_main_v11_apply]
  exact congrArg (val_main_v10 (F := Ideal) x0 x1)
    (funext fun a => Fin.ext (by match a with | ⟨0, _⟩ => rfl | ⟨1, _⟩ => rfl))

/-- The softmax entry. -/
theorem v13_at (x0 x1 : (⟨S32x2048x128, .f32⟩ : BufTy).Contents (Elt Ideal)) (b : Fin 32) (i j : Fin 2048) :
    val_main_v13 (F := Ideal) x0 x1 (ix3 b i j)
      = Cert.Wta.soft (fun k => val_main_v2 (F := Ideal) x0 x1 (ix3 b i k)) j := by
  rw [val_main_v13_apply, v9_at, v12_at, v10_at]
  rfl

/-- The maximum of the softmax row (b, i). -/
theorem v14_at (x0 x1 : (⟨S32x2048x128, .f32⟩ : BufTy).Contents (Elt Ideal)) (b : Fin 32) (i : Fin 2048) :
    val_main_v14 (F := Ideal) x0 x1 (ix2 b i)
      = Cert.Wta.rowMax (Cert.Wta.soft (fun k => val_main_v2 (F := Ideal) x0 x1 (ix3 b i k))) := by
  unfold val_main_v14
  refine (reduce_max_at (val_main_v13 (F := Ideal) x0 x1) (val_main_cst_3 (F := Ideal)) (fun _ => rfl) b i).trans ?_
  exact congrArg Cert.Wta.rowMax (funext fun k => v13_at x0 x1 b i k)

/-- The softmax row's maximum broadcast back along the key axis. -/
theorem v16_at (x0 x1 : (⟨S32x2048x128, .f32⟩ : BufTy).Contents (Elt Ideal)) (b : Fin 32) (i j : Fin 2048) :
    val_main_v16 (F := Ideal) x0 x1 (ix3 b i j) = val_main_v14 (F := Ideal) x0 x1 (ix2 b i) := by
  rw [val_main_v16_apply, val_main_v15_apply]
  exact congrArg (val_main_v14 (F := Ideal) x0 x1)
    (funext fun a => Fin.ext (by match a with | ⟨0, _⟩ => rfl | ⟨1, _⟩ => rfl))

/-- The weight: the softmax entry times the 0/1 value of "entry = the softmax row's maximum". -/
theorem v19_at (x0 x1 : (⟨S32x2048x128, .f32⟩ : BufTy).Contents (Elt Ideal)) (b : Fin 32) (i j : Fin 2048) :
    val_main_v19 (F := Ideal) x0 x1 (ix3 b i j)
      = Cert.Wta.wta (fun k => val_main_v2 (F := Ideal) x0 x1 (ix3 b i k)) j := by
  rw [val_main_v19_apply, val_main_v18_apply, val_main_v17_apply, v16_at, v14_at, v13_at]
  rfl

/-- THE WEIGHTS: the reference's weight array is `attnW` of the queries and keys, entry by entry. -/
theorem ref_attn (x0 x1 : (⟨S32x2048x128, .f32⟩ : BufTy).Contents (Elt Ideal)) :
    val_main_v19 (F := Ideal) x0 x1 = Cert.Wta.attnW x0 x1 := by
  funext I
  obtain ⟨b, i, j, rfl⟩ : ∃ (b : Fin 32) (i : Fin 2048) (j : Fin 2048), I = ix3 b i j := ⟨I 0, I 1, I 2, eq_ix3 I⟩
  rw [v19_at, Cert.Wta.attnW_ix3]
  exact congrArg (fun s => Cert.Wta.wta s j) (funext fun k => v2_at x0 x1 b i k)

/-- THE OUTPUT: the reference's result is `attnO` of the three arguments: at (b, i, d) the sum over the keys `j` of the weight at
    (b, i, j) times the value at (b, j, d). -/
theorem ref_out (x0 x1 x2 : (⟨S32x2048x128, .f32⟩ : BufTy).Contents (Elt Ideal)) :
    val_main_v20 (F := Ideal) x0 x1 x2 = Cert.Wta.attnO x0 x1 x2 := by
  funext I
  obtain ⟨b, i, d, rfl⟩ : ∃ (b : Fin 32) (i : Fin 2048) (d : Fin 128), I = ix3 b i d := ⟨I 0, I 1, I 2, eq_ix3 I⟩
  rw [val_main_v20_apply, ref_attn, Cert.Wta.attnO_ix3]
  refine Finset.sum_congr rfl fun j _ => ?_
  have el : lidx_main_v20 (ix3 b i d) j = ix3 b i j :=
    funext fun a => Fin.ext (by match a with | ⟨0, _⟩ => rfl | ⟨1, _⟩ => rfl | ⟨2, _⟩ => rfl)
  have er : ridx_main_v20 (ix3 b i d) j = ix3 b j d :=
    funext fun a => Fin.ext (by match a with | ⟨0, _⟩ => rfl | ⟨1, _⟩ => rfl | ⟨2, _⟩ => rfl)
  rw [el, er]

end Cert.ReferenceIdeal.Rows

end
-- ==== Proof.KernelRows.lean ====
/-
  The kernel body's two stored values, read at an index of the block.

  The body holds 256 query rows, all 2048 key rows and all 2048 value rows of one batch. Its first value is, row by row, the
  winner-take-all softmax (`Cert.Wta.wta`) of the row's scaled scores against the 2048 keys; its second is that matrix of
  weights times the value rows. The scores are the dot products over the 128 features times the named scale, which is the
  quotient by the binary number 11863283/1048576 (`Cert.Wta.scale_eq`).
-/
import proofs.«115531_j15857019257096_1_alg».proof.Proof.Gen.KernelIdeal.Skeleton
import proofs.«115531_j15857019257096_1_alg».proof.Proof.RowWta
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-- The named scale denotes the rational 1048576/11863283. -/
theorem inv_temper : Named.named (F := Ideal) κ "inv_temper" (φ := .f32) 0x3DB504F3#32 = ((1048576 / 11863283 : ℝ) : EReal) :=
  IdealRules.named_const.ideal_named_scalar _ _ _ _ rfl

/-! ## The body's first value in two parts: the scaled scores, and what is done to them row by row -/

/-- The block's scaled scores: query rows against key rows over the features, times the scale. -/
def scores (P0 : Vec Ideal S1x256x128 .f32) (P1 : Vec Ideal S1x2048x128 .f32) : FVec Ideal S256x2048 .f32 :=
  mulf (matmul (φ₁ := .f32) (φ₂ := .f32) dot_S256x128_S2048x128_S256x2048_1_1_0_0_n_n (some .fp32)
      (shapeCast S256x128 P0 shapeCasts_S1x256x128_S256x128 : FVec Ideal S256x128 .f32)
      (shapeCast S2048x128 P1 shapeCasts_S1x2048x128_S2048x128 : FVec Ideal S2048x128 .f32) (constant S256x2048 .f32 0x00000000#32))
    (broadcast S256x2048 (Named.named (F := Ideal) κ "inv_temper" (φ := .f32) 0x3DB504F3#32) : FVec Ideal S256x2048 .f32)

/-- A vector of one value per row, laid back over the 256 × 2048 block: every entry of row `i` reads the row's value. -/
def perRow (y : FVec Ideal S256 .f32) : FVec Ideal S256x2048 .f32 :=
  broadcastTo S256x2048 (shapeCast S256x1 y shapeCasts_S256_S256x1) broadcasts_S256x1_S256x2048

/-- The rows' maxima from −∞. -/
def rowMaxV (x : FVec Ideal S256x2048 .f32) : FVec Ideal S256 .f32 :=
  multiReduction .maximumf [1] S256 x 0xFF800000#32 reduces_S256x2048_S256 (.inl rfl) rfl

/-- The softmax of every row: shifted by the row's maximum, exponentiated, divided by the row's sum. -/
def softV (x : FVec Ideal S256x2048 .f32) : FVec Ideal S256x2048 .f32 :=
  divf (exp (subf x (perRow (rowMaxV x))))
    (perRow (multiReduction .add [1] S256 (exp (subf x (perRow (rowMaxV x)))) 0x00000000#32 reduces_S256x2048_S256 (.inl rfl) rfl))

/-- Winner-take-all on every row: the softmax entry times the 0/1 of "entry = the softmax row's maximum". -/
def wtaV (x : FVec Ideal S256x2048 .f32) : FVec Ideal S256x2048 .f32 :=
  mulf (softV x) (sitofp .f32 (extui 32 (cmpf .oeq (softV x) (perRow (rowMaxV (softV x)))) natLt_1_32))

set_option maxRecDepth 65536 in
/-- The body's first value is winner-take-all of the scaled scores. -/
theorem pay1_eq (P0 : Vec Ideal S1x256x128 .f32) (P1 : Vec Ideal S1x2048x128 .f32) :
    k0_pay1 (F := Ideal) P0 P1 = wtaV (scores P0 P1) := rfl

/-! ## Read at an index -/

/-- A per-row value laid over the block, read at (i, j), is row `i`'s value. -/
theorem perRow_apply (y : FVec Ideal S256 .f32) (i : Fin 256) (j : Fin 2048) : perRow y (ix2 i j) = y (ix1 i) := by
  unfold perRow
  refine (broadcastTo_apply _ broadcasts_S256x1_S256x2048 (ix2 i j) (ix2 i (0 : Fin 1)) (fun a => ?_)).trans ?_
  · match a with
    | ⟨0, _⟩ => show i.val = if (256 : Nat) = 1 then 0 else i.val; rw [if_neg (by decide)]
    | ⟨1, _⟩ => show 0 = if (1 : Nat) = 1 then 0 else j.val; rw [if_pos rfl]
  · refine shapeCast_apply y shapeCasts_S256_S256x1 (ix2 i (0 : Fin 1)) (ix1 i) ?_
    rw [Shape.rowMajor_val_two]
    show (Shape.rowMajor S256 (ix1 i)).val = i.val * 1 + 0
    simp [Shape.rowMajor_val_one]

/-- Row `i` of a 256 × 2048 block. -/
abbrev rowOf (x : FVec Ideal S256x2048 .f32) (i : Fin 256) : Fin 2048 → EReal := fun k => x (ix2 i k)

/-- The rows' maxima, read at a row: the fold of `max` from −∞ over the row. -/
theorem rowMaxV_apply (x : FVec Ideal S256x2048 .f32) (i : Fin 256) : rowMaxV x (ix1 i) = Cert.Wta.rowMax (rowOf x i) := by
  unfold rowMaxV
  refine (Ideal.multiReduction_maximumf_single x 0xFF800000#32 reduces_S256x2048_S256 (.inl rfl) rfl (ix1 i)).trans ?_
  show (Finset.univ : Finset (Fin 2048)).fold max Cert.Wta.negInf (x ∘ reduces_S256x2048_S256.lift (ix1 i)) = _
  unfold Cert.Wta.rowMax
  refine Finset.fold_congr (fun k _ => ?_)
  exact congrArg x (funext fun a => Fin.ext (by match a with | ⟨0, _⟩ => rfl | ⟨1, _⟩ => rfl))

/-- A row's sum from zero, read at a row. -/
theorem rowSum_apply (y : FVec Ideal S256x2048 .f32) (i : Fin 256) :
    multiReduction .add [1] S256 y 0x00000000#32 reduces_S256x2048_S256 (.inl rfl) rfl (ix1 i) = ∑ k : Fin 2048, y (ix2 i k) := by
  refine (Ideal.multiReduction_add_single y 0x00000000#32 reduces_S256x2048_S256 (.inl rfl) rfl (ix1 i)).trans ?_
  show ∑ k : Fin 2048, y (reduces_S256x2048_S256.lift (ix1 i) k) = _
  exact Finset.sum_congr rfl fun k _ => congrArg y (funext fun a => Fin.ext (by match a with | ⟨0, _⟩ => rfl | ⟨1, _⟩ => rfl))

/-- An entry shifted by its row's maximum and exponentiated. -/
theorem shifted_apply (x : FVec Ideal S256x2048 .f32) (i : Fin 256) (k : Fin 2048) :
    exp (subf x (perRow (rowMaxV x))) (ix2 i k) = Ideal.exp (x (ix2 i k) - Cert.Wta.rowMax (rowOf x i)) := by
  show Ideal.exp (x (ix2 i k) - perRow (rowMaxV x) (ix2 i k)) = _
  rw [perRow_apply, rowMaxV_apply]

/-- The softmax at (i, j) is the softmax of row `i`, at `j`. -/
theorem softV_apply (x : FVec Ideal S256x2048 .f32) (i : Fin 256) (j : Fin 2048) :
    softV x (ix2 i j) = Cert.Wta.soft (rowOf x i) j := by
  unfold softV Cert.Wta.soft
  show Ideal.div (exp (subf x (perRow (rowMaxV x))) (ix2 i j))
    (perRow (multiReduction .add [1] S256 (exp (subf x (perRow (rowMaxV x)))) 0x00000000#32 reduces_S256x2048_S256 (.inl rfl) rfl) (ix2 i j)) = _
  rw [perRow_apply, rowSum_apply, shifted_apply]
  exact congrArg (Ideal.div _) (Finset.sum_congr rfl fun k _ => shifted_apply x i k)

/-- Winner-take-all at (i, j) is winner-take-all of row `i`, at `j`: the comparison's bit, widened to 32 bits and read
    signed, is the bit read as 0 or 1. -/
theorem wtaV_apply (x : FVec Ideal S256x2048 .f32) (i : Fin 256) (j : Fin 2048) :
    wtaV x (ix2 i j) = Cert.Wta.wta (rowOf x i) j := by
  unfold wtaV Cert.Wta.wta
  show softV x (ix2 i j) * (((Ideal.cmp .oeq (softV x (ix2 i j)) (perRow (rowMaxV (softV x)) (ix2 i j))).setWidth 32).toInt : ℝ) = _
  rw [Cert.Wta.toInt_setWidth_bit, perRow_apply, rowMaxV_apply, softV_apply]
  have hrow : rowOf (softV x) i = Cert.Wta.soft (rowOf x i) := funext fun k => softV_apply x i k
  rw [hrow]

/-! ## The scores -/

/-- Queries against keys contract the feature axis of both: the left operand is read at (query row, feature) … -/
theorem lhs_qk_0 (I : S256x2048.Idx) (q : dot_S256x128_S2048x128_S256x2048_1_1_0_0_n_n.contr.Idx) :
    (dot_S256x128_S2048x128_S256x2048_1_1_0_0_n_n.lhsIdx I q 0).val = (I 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_qk_1 (I : S256x2048.Idx) (q : dot_S256x128_S2048x128_S256x2048_1_1_0_0_n_n.contr.Idx) :
    (dot_S256x128_S2048x128_S256x2048_1_1_0_0_n_n.lhsIdx I q 1).val = (q ⟨0, by decide⟩).val :=
  dot_S256x128_S2048x128_S256x2048_1_1_0_0_n_n.lhsIdx_val_of_single rfl I q
/-- … and the right operand at (key row, feature). -/
theorem rhs_qk_0 (I : S256x2048.Idx) (q : dot_S256x128_S2048x128_S256x2048_1_1_0_0_n_n.contr.Idx) :
    (dot_S256x128_S2048x128_S256x2048_1_1_0_0_n_n.rhsIdx I q 0).val = (I 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_qk_1 (I : S256x2048.Idx) (q : dot_S256x128_S2048x128_S256x2048_1_1_0_0_n_n.contr.Idx) :
    (dot_S256x128_S2048x128_S256x2048_1_1_0_0_n_n.rhsIdx I q 1).val = (q ⟨0, by decide⟩).val :=
  dot_S256x128_S2048x128_S256x2048_1_1_0_0_n_n.rhsIdx_val_of_single rfl I q

/-- The product of the query rows with the key rows into zero, at (i, j): the sum over the 128 features. -/
theorem qk_apply (x : FVec Ideal S256x128 .f32) (y : FVec Ideal S2048x128 .f32) (i : Fin 256) (j : Fin 2048) :
    matmul dot_S256x128_S2048x128_S256x2048_1_1_0_0_n_n (some .fp32) x y (constant S256x2048 .f32 0x00000000#32) (ix2 i j)
      = ∑ d : Fin 128, x (ix2 i d) * y (ix2 j d) := by
  simp only [matmul]
  rw [Ideal.matmul_constant_zero_apply, ← Equiv.sum_comp (ValueIdx.contrEquiv1 dot_S256x128_S2048x128_S256x2048_1_1_0_0_n_n 128 rfl rfl).symm]
  refine Finset.sum_congr rfl fun k _ => ?_
  have hk := ValueIdx.contrEquiv1_symm_val dot_S256x128_S2048x128_S256x2048_1_1_0_0_n_n 128 rfl rfl k
  have el : dot_S256x128_S2048x128_S256x2048_1_1_0_0_n_n.lhsIdx (ix2 i j) ((ValueIdx.contrEquiv1 dot_S256x128_S2048x128_S256x2048_1_1_0_0_n_n 128 rfl rfl).symm k) = ix2 i k := funext fun a => Fin.ext (by
    match a with
    | ⟨0, _⟩ => exact lhs_qk_0 _ _
    | ⟨1, _⟩ => exact (lhs_qk_1 _ _).trans hk)
  have er : dot_S256x128_S2048x128_S256x2048_1_1_0_0_n_n.rhsIdx (ix2 i j) ((ValueIdx.contrEquiv1 dot_S256x128_S2048x128_S256x2048_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er]

/-- The scaled score of query row `i` against key row `j`: the dot product over the features, divided by 11863283/1048576. -/
theorem scores_apply (P0 : Vec Ideal S1x256x128 .f32) (P1 : Vec Ideal S1x2048x128 .f32) (i : Fin 256) (j : Fin 2048) :
    scores P0 P1 (ix2 i j)
      = Ideal.div (∑ d : Fin 128, P0 (ix3 (0 : Fin 1) i d) * P1 (ix3 (0 : Fin 1) j d)) (Ideal.ofBits .f32 0x413504F3#32) := by
  unfold scores
  show matmul dot_S256x128_S2048x128_S256x2048_1_1_0_0_n_n (some .fp32) _ _ (constant S256x2048 .f32 0x00000000#32) (ix2 i j)
    * Named.named (F := Ideal) κ "inv_temper" (φ := .f32) 0x3DB504F3#32 = _
  rw [qk_apply, inv_temper, Cert.Wta.scale_eq]
  refine congrArg (Ideal.div · _) (Finset.sum_congr rfl fun d _ => ?_)
  rw [shapeCast_1ab_ab_apply, shapeCast_1ab_ab_apply]

/-- The body's first value at (i, j): winner-take-all of query row `i`'s scores against all keys, at key `j`. -/
theorem pay1_apply (P0 : Vec Ideal S1x256x128 .f32) (P1 : Vec Ideal S1x2048x128 .f32) (i : Fin 256) (j : Fin 2048) :
    k0_pay1 (F := Ideal) P0 P1 (ix2 i j)
      = Cert.Wta.wta (fun j' => Ideal.div (∑ d : Fin 128, P0 (ix3 (0 : Fin 1) i d) * P1 (ix3 (0 : Fin 1) j' d)) (Ideal.ofBits .f32 0x413504F3#32)) j := by
  rw [pay1_eq, wtaV_apply]
  exact congrArg (fun s => Cert.Wta.wta s j) (funext fun k => scores_apply P0 P1 i k)

/-! ## The weights against the values -/

/-- Weights against values contract the key axis: the left operand is read at (query row, key) … -/
theorem lhs_wv_0 (I : S256x128.Idx) (q : dot_S256x2048_S2048x128_S256x128_1_0_0_1_n_n.contr.Idx) :
    (dot_S256x2048_S2048x128_S256x128_1_0_0_1_n_n.lhsIdx I q 0).val = (I 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhs_wv_1 (I : S256x128.Idx) (q : dot_S256x2048_S2048x128_S256x128_1_0_0_1_n_n.contr.Idx) :
    (dot_S256x2048_S2048x128_S256x128_1_0_0_1_n_n.lhsIdx I q 1).val = (q ⟨0, by decide⟩).val :=
  dot_S256x2048_S2048x128_S256x128_1_0_0_1_n_n.lhsIdx_val_of_single rfl I q
/-- … and the right operand at (key, feature). -/
theorem rhs_wv_0 (I : S256x128.Idx) (q : dot_S256x2048_S2048x128_S256x128_1_0_0_1_n_n.contr.Idx) :
    (dot_S256x2048_S2048x128_S256x128_1_0_0_1_n_n.rhsIdx I q 0).val = (q ⟨0, by decide⟩).val :=
  dot_S256x2048_S2048x128_S256x128_1_0_0_1_n_n.rhsIdx_val_of_single rfl I q
theorem rhs_wv_1 (I : S256x128.Idx) (q : dot_S256x2048_S2048x128_S256x128_1_0_0_1_n_n.contr.Idx) :
    (dot_S256x2048_S2048x128_S256x128_1_0_0_1_n_n.rhsIdx I q 1).val = (I 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The product of a 256 × 2048 matrix of weights with the 2048 value rows into zero, at (i, d): the sum over the keys. -/
theorem wv_apply (w : FVec Ideal S256x2048 .f32) (y : FVec Ideal S2048x128 .f32) (i : Fin 256) (d : Fin 128) :
    matmul dot_S256x2048_S2048x128_S256x128_1_0_0_1_n_n (some .fp32) w y (constant S256x128 .f32 0x00000000#32) (ix2 i d)
      = ∑ j : Fin 2048, w (ix2 i j) * y (ix2 j d) := by
  simp only [matmul]
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 i d) ((ValueIdx.contrEquiv1 dot_S256x2048_S2048x128_S256x128_1_0_0_1_n_n 2048 rfl rfl).symm k) = ix2 i k := funext fun a => Fin.ext (by
    match a with
    | ⟨0, _⟩ => exact lhs_wv_0 _ _
    | ⟨1, _⟩ => exact (lhs_wv_1 _ _).trans hk)
  have er : dot_S256x2048_S2048x128_S256x128_1_0_0_1_n_n.rhsIdx (ix2 i d) ((ValueIdx.contrEquiv1 dot_S256x2048_S2048x128_S256x128_1_0_0_1_n_n 2048 rfl rfl).symm k) = ix2 k d := funext fun a => Fin.ext (by
    match a with
    | ⟨0, _⟩ => exact (rhs_wv_0 _ _).trans hk
    | ⟨1, _⟩ => exact rhs_wv_1 _ _)
  rw [el, er]

/-- The body's second value at (i, d): the sum over the keys of the first value at (i, j) times the value row `j` at `d`. -/
theorem pay2_apply (P0 : Vec Ideal S1x256x128 .f32) (P1 P2 : Vec Ideal S1x2048x128 .f32) (i : Fin 256) (d : Fin 128) :
    k0_pay2 (F := Ideal) P0 P1 P2 (ix3 (0 : Fin 1) i d)
      = ∑ j : Fin 2048, k0_pay1 (F := Ideal) P0 P1 (ix2 i j) * P2 (ix3 (0 : Fin 1) j d) := by
  show shapeCast S1x256x128 (matmul (φ₁ := .f32) (φ₂ := .f32) dot_S256x2048_S2048x128_S256x128_1_0_0_1_n_n (some .fp32) (k0_pay1 (F := Ideal) P0 P1)
      (shapeCast S2048x128 P2 shapeCasts_S1x2048x128_S2048x128 : FVec Ideal S2048x128 .f32) (constant S256x128 .f32 0x00000000#32))
    shapeCasts_S256x128_S1x256x128 (ix3 (0 : Fin 1) i d) = _
  rw [shapeCast_ab_1ab_apply, wv_apply]
  refine Finset.sum_congr rfl fun j _ => ?_
  rw [shapeCast_1ab_ab_apply]

end Cert.KernelIdeal.Rows

end
-- ==== Proof.Blocks.lean ====
/-
  From the blocks the grid points write back to the two whole result arrays.

  The grid has 32 × 8 points; point (b, g) works on batch `b` and on the 256 query rows 256·g … 256·g + 255. It reads the
  query block (b, g) (256 rows of 128 features), the whole key array and the whole value array of batch `b` (2048 rows of
  128 features each), and writes back block (b, g) of the weights (256 rows of 2048 keys) and block (b, g) of the output
  (256 rows of 128 features). Element (0, i, ·) of a block sits in its array at (b, 256·g + i, ·).

  An entry of the weights, W[b, r, j], depends on query row (b, r) and on all 2048 key rows of batch `b`: it is the
  winner-take-all softmax of that row's scores at key `j`. An entry of the output, O[b, r, d], is the weights' row (b, r)
  against column `d` of batch `b`'s values. Both are therefore computed whole inside the one point that owns row `r`, and
  the blocks of the 256 points tile each result array: every index (b, r, ·) lies in the block of point (b, r / 256).
-/
import proofs.«115531_j15857019257096_1_alg».proof.Proof.Gen.KernelIdeal.Value
import proofs.«115531_j15857019257096_1_alg».proof.Proof.KernelRows
import proofs.«115531_j15857019257096_1_alg».proof.Proof.RowWta

noncomputable section

namespace Cert.KernelIdeal.AttnBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Which block each window holds at a point -/

/-- The five block-index maps compared over the grid's 256 points, with the weights' window as the yardstick: the query
    block and the output block move with it on the batch axis and on the row axis; the key block and the value block move
    with it on the batch axis only and stay at row block 0 (they are a whole batch); every window stays at feature (or key)
    block 0; and the weights' batch block index is at most 31, its row block index at most 7. -/
theorem blockIndex_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 3) = win0_4.index t (0 : Fin 3)
    ∧ win0_2.index t (1 : Fin 3) = 0
    ∧ win0_2.index t (2 : Fin 3) = 0
    ∧ win0_3.index t (0 : Fin 3) = win0_4.index t (0 : Fin 3)
    ∧ win0_3.index t (1 : Fin 3) = win0_4.index t (1 : Fin 3)
    ∧ win0_3.index t (2 : Fin 3) = 0
    ∧ win0_4.index t (2 : Fin 3) = 0
    ∧ win0_4.index t (0 : Fin 3) ≤ 31
    ∧ win0_4.index t (1 : Fin 3) ≤ 7 :=
  (by decide +kernel : ∀ t : Fin grid0.N, _)

/-- The grid runs through the batches, and inside a batch through the 8 row blocks: point 8·b + g holds the weights' block
    (b, g, 0). -/
theorem blockIndex_at : ∀ (q0 : Fin 32) (q1 : Fin 8) (h : q0.val * 8 + q1.val < grid0.N),
    win0_4.index ⟨q0.val * 8 + q1.val, h⟩ = ![q0.val, q1.val, 0] := by decide +kernel

/-- Every pair (batch, row block) is SOME point's: the weights' blocks reach all 32 × 8 positions. -/
theorem blockIndex_onto (q0 : Fin 32) (q1 : Fin 8) : ∃ t : Fin cfg0.N, win0_4.index t = ![q0.val, q1.val, 0] :=
  ⟨⟨q0.val * 8 + q1.val, by
      have h0 : q0.val < 32 := q0.isLt
      have h1 : q1.val < 8 := q1.isLt
      have hN : grid0.N = 256 := N_0
      show q0.val * 8 + q1.val < grid0.N; omega⟩, blockIndex_at q0 q1 _⟩

/-- The zero offsets of a whole-buffer load or store, spelt as the constant function. -/
theorem zeroOff : (![0, 0, 0] : Fin 3 → Nat) = fun _ => 0 := funext fun a => by fin_cases a <;> rfl

/-! ## The input blocks as pieces of the argument arrays -/

/-- The query block, the key block and the value block a point reads, at their literal shapes. -/
abbrev qblk (c : Dev nD) (t : Fin cfg0.N) : Vec Ideal S1x256x128 .f32 := iblk m c 0 t
abbrev kblk (c : Dev nD) (t : Fin cfg0.N) : Vec Ideal S1x2048x128 .f32 := iblk m c 1 t
abbrev vblk (c : Dev nD) (t : Fin cfg0.N) : Vec Ideal S1x2048x128 .f32 := iblk m c 2 t
/-- The three argument arrays as the region finds them: batch × position × feature. -/
abbrev qarr (c : Dev nD) : Cert.Wta.Arr3 := V m c main_arg0
abbrev karr (c : Dev nD) : Cert.Wta.Arr3 := V m c main_arg1
abbrev varr (c : Dev nD) : Cert.Wta.Arr3 := V m c main_arg2

/-- Row `i` of the query block at a point is query row 256·g + i of the point's batch, `b` and `g` the point's batch and
    row block (named through the weights' block index, which the query block shares). -/
theorem qblk_apply (c : Dev nD) (t : Fin cfg0.N) (i : Fin 256) (d : Fin 128) (b : Fin 32) (r : Fin 2048)
    (hb : b.val = win0_4.index t (0 : Fin 3)) (hr : r.val = win0_4.index t (1 : Fin 3) * 256 + i.val) :
    qblk m c t (ix3 (0 : Fin 1) i d) = qarr m c (ix3 b r d) := by
  obtain ⟨e00, e01, e02, -⟩ := blockIndex_facts t
  show V m c main_arg0 (((cfg0.win 0).blk t).view.emb (ix3 (0 : Fin 1) i d)) = V m c main_arg0 (ix3 b r d)
  congr 1
  funext a; apply Fin.ext
  match a with
  | ⟨0, _⟩ => show win0_0.index t (0 : Fin 3) * 1 + 1 * 0 = b.val; omega
  | ⟨1, _⟩ => show win0_0.index t (1 : Fin 3) * 256 + 1 * i.val = r.val; omega
  | ⟨2, _⟩ => show win0_0.index t (2 : Fin 3) * 128 + 1 * d.val = d.val; omega

/-- Row `j` of the key block at a point is key row `j` of the point's batch: the block is the whole batch. -/
theorem kblk_apply (c : Dev nD) (t : Fin cfg0.N) (j : Fin 2048) (d : Fin 128) (b : Fin 32)
    (hb : b.val = win0_4.index t (0 : Fin 3)) :
    kblk m c t (ix3 (0 : Fin 1) j d) = karr m c (ix3 b j d) := by
  obtain ⟨-, -, -, e10, e11, e12, -⟩ := blockIndex_facts t
  show V m c main_arg1 (((cfg0.win 1).blk t).view.emb (ix3 (0 : Fin 1) j d)) = V m c main_arg1 (ix3 b j d)
  congr 1
  funext a; apply Fin.ext
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 128 + 1 * d.val = d.val; omega

/-- Row `j` of the value block at a point is value row `j` of the point's batch. -/
theorem vblk_apply (c : Dev nD) (t : Fin cfg0.N) (j : Fin 2048) (d : Fin 128) (b : Fin 32)
    (hb : b.val = win0_4.index t (0 : Fin 3)) :
    vblk m c t (ix3 (0 : Fin 1) j d) = varr m c (ix3 b j d) := by
  obtain ⟨-, -, -, -, -, -, e20, e21, e22, -⟩ := blockIndex_facts t
  show V m c main_arg2 (((cfg0.win 2).blk t).view.emb (ix3 (0 : Fin 1) j d)) = V m c main_arg2 (ix3 b j d)
  congr 1
  funext a; apply Fin.ext
  match a with
  | ⟨0, _⟩ => show win0_2.index t (0 : Fin 3) * 1 + 1 * 0 = b.val; omega
  | ⟨1, _⟩ => show win0_2.index t (1 : Fin 3) * 2048 + 1 * j.val = j.val; omega
  | ⟨2, _⟩ => show win0_2.index t (2 : Fin 3) * 128 + 1 * d.val = d.val; omega

/-! ## What a point computes is the arrays' function at the rows it owns -/

/-- THE WEIGHTS OF ONE ROW. Entry (i, j) of the 256 × 2048 weights a point computes from its query and key blocks is
    W[b, 256·g + i, j] of the argument arrays: the winner-take-all softmax is taken over the same row of 2048 scores, since
    the block's query row `i` is the array's row 256·g + i and the block's key rows are the batch's key rows, feature by
    feature, so each dot product, hence each score, is the same number. -/
theorem weights_at (c : Dev nD) (t : Fin cfg0.N) (i : Fin 256) (j : Fin 2048) (b : Fin 32) (r : Fin 2048)
    (hb : b.val = win0_4.index t (0 : Fin 3)) (hr : r.val = win0_4.index t (1 : Fin 3) * 256 + i.val) :
    k0_pay1 (F := Ideal) (qblk m c t) (kblk m c t) (ix2 i j)
      = Cert.Wta.attnW (qarr m c) (karr m c) (ix3 b r j) := by
  refine (Cert.KernelIdeal.Rows.pay1_apply (qblk m c t) (kblk m c t) i j).trans ?_
  refine Eq.trans ?_ (Cert.Wta.attnW_ix3 (qarr m c) (karr m c) b r j).symm
  refine congrArg (fun s => Cert.Wta.wta s j) ?_
  funext j'
  show Ideal.div (∑ d : Fin 128, qblk m c t (ix3 (0 : Fin 1) i d) * kblk m c t (ix3 (0 : Fin 1) j' d)) (Ideal.ofBits .f32 0x413504F3#32)
    = Ideal.div (∑ d : Fin 128, qarr m c (ix3 b r d) * karr m c (ix3 b j' d)) (Ideal.ofBits .f32 0x413504F3#32)
  refine congrArg (fun x => Ideal.div x (Ideal.ofBits .f32 0x413504F3#32)) ?_
  refine Finset.sum_congr rfl fun d _ => ?_
  rw [qblk_apply m c t i d b r hb hr, kblk_apply m c t j' d b hb]

/-- WHAT A POINT WRITES BACK TO THE WEIGHTS is its block of `attnW` of the argument arrays: element (0, i, j) of the block
    is the point's weight (i, j), and sits in the array at (b, 256·g + i, j). -/
theorem flushed4_eq (c : Dev nD) (t : Fin cfg0.N) :
    (dats m 0 c).flushed 4 t = ((cfg0.win 4).blk t).view.read (Elt Ideal) (Cert.Wta.attnW (V m c main_arg0) (V m c main_arg1)) := by
  rw [Value.flushed4]
  unfold out0_4
  simp only [View.ld_unit_zero (S := S1x256x128) zeroOff, View.ld_unit_zero (S := S1x2048x128) zeroOff]
  obtain ⟨-, -, -, -, -, -, -, -, -, -, -, -, e42, h0, h1⟩ := blockIndex_facts t
  funext y
  obtain ⟨y0, i, j, rfl⟩ : ∃ (y0 : Fin 1) (i : Fin 256) (j : Fin 2048), y = ix3 y0 i j := ⟨y 0, y 1, y 2, eq_ix3 y⟩
  show View.canon ([⟨r0_2, k0_pay3 (qblk m c t) (kblk m c t)⟩] : List (View.Piece (Elt Ideal) S1x256x2048 .f32)) (ix3 y0 i j)
    = Cert.Wta.attnW (qarr m c) (karr m c) (((cfg0.win 4).blk t).view.emb (ix3 y0 i j))
  refine (Value.canon4_eq (qblk m c t) (kblk m c t) (ix3 y0 i j)).trans ?_
  show k0_pay1 (qblk m c t) (kblk m c t) (ix4_0 (ix3 y0 i j)) = _
  have hix : ix4_0 (ix3 y0 i j) = ix2 i j := by
    funext a; match a with | ⟨0, _⟩ => rfl | ⟨1, _⟩ => rfl
  have hi : i.val < 256 := i.isLt
  obtain ⟨b, hb⟩ : ∃ b : Fin 32, b.val = win0_4.index t (0 : Fin 3) := ⟨⟨win0_4.index t (0 : Fin 3), by omega⟩, rfl⟩
  obtain ⟨r, hr⟩ : ∃ r : Fin 2048, r.val = win0_4.index t (1 : Fin 3) * 256 + i.val := ⟨⟨win0_4.index t (1 : Fin 3) * 256 + i.val, by omega⟩, rfl⟩
  have hemb : ((cfg0.win 4).blk t).view.emb (ix3 y0 i j) = ix3 b r j := by
    have hy0 : y0.val < 1 := y0.isLt
    funext a; apply Fin.ext
    match a with
    | ⟨0, _⟩ => show win0_4.index t (0 : Fin 3) * 1 + 1 * y0.val = b.val; omega
    | ⟨1, _⟩ => show win0_4.index t (1 : Fin 3) * 256 + 1 * i.val = r.val; omega
    | ⟨2, _⟩ => show win0_4.index t (2 : Fin 3) * 2048 + 1 * j.val = j.val; omega
  rw [hix, hemb]
  exact weights_at m c t i j b r hb hr

/-- WHAT A POINT WRITES BACK TO THE OUTPUT is its block of `attnO` of the argument arrays: element (0, i, d) of the block
    is the sum over the 2048 keys of the point's weight (i, j) times the value block's entry (j, d), that is of
    W[b, 256·g + i, j] · v[b, j, d], and sits in the array at (b, 256·g + i, d). -/
theorem flushed3_eq (c : Dev nD) (t : Fin cfg0.N) :
    (dats m 0 c).flushed 3 t = ((cfg0.win 3).blk t).view.read (Elt Ideal) (Cert.Wta.attnO (V m c main_arg0) (V m c main_arg1) (V m c main_arg2)) := by
  rw [Value.flushed3]
  unfold out0_3
  rw [View.canon_unit_zero zeroOff]
  simp only [View.ld_unit_zero (S := S1x256x128) zeroOff, View.ld_unit_zero (S := S1x2048x128) zeroOff]
  obtain ⟨-, -, -, -, -, -, -, -, -, e30, e31, e32, -, h0, h1⟩ := blockIndex_facts t
  funext y
  obtain ⟨y0, i, d, rfl⟩ : ∃ (y0 : Fin 1) (i : Fin 256) (d : Fin 128), y = ix3 y0 i d := ⟨y 0, y 1, y 2, eq_ix3 y⟩
  obtain rfl : y0 = 0 := Subsingleton.elim _ _
  show k0_pay2 (qblk m c t) (kblk m c t) (vblk m c t) (ix3 (0 : Fin 1) i d)
    = Cert.Wta.attnO (qarr m c) (karr m c) (varr m c) (((cfg0.win 3).blk t).view.emb (ix3 (0 : Fin 1) i d))
  refine (Cert.KernelIdeal.Rows.pay2_apply (qblk m c t) (kblk m c t) (vblk m c t) i d).trans ?_
  have hi : i.val < 256 := i.isLt
  obtain ⟨b, hb⟩ : ∃ b : Fin 32, b.val = win0_4.index t (0 : Fin 3) := ⟨⟨win0_4.index t (0 : Fin 3), by omega⟩, rfl⟩
  obtain ⟨r, hr⟩ : ∃ r : Fin 2048, r.val = win0_4.index t (1 : Fin 3) * 256 + i.val := ⟨⟨win0_4.index t (1 : Fin 3) * 256 + i.val, by omega⟩, rfl⟩
  have hemb : ((cfg0.win 3).blk t).view.emb (ix3 (0 : Fin 1) i d) = ix3 b r d := by
    funext a; apply Fin.ext
    match a with
    | ⟨0, _⟩ => show win0_3.index t (0 : Fin 3) * 1 + 1 * 0 = b.val; omega
    | ⟨1, _⟩ => show win0_3.index t (1 : Fin 3) * 256 + 1 * i.val = r.val; omega
    | ⟨2, _⟩ => show win0_3.index t (2 : Fin 3) * 128 + 1 * d.val = d.val; omega
  rw [hemb]
  refine Eq.trans ?_ (Cert.Wta.attnO_ix3 (qarr m c) (karr m c) (varr m c) b r d).symm
  refine Finset.sum_congr rfl fun j _ => ?_
  rw [weights_at m c t i j b r hb hr, vblk_apply m c t j d b hb]

/-! ## The blocks tile the result arrays -/

/-- An index of the weights is in a point's block iff each coordinate is in the block's range on its axis. -/
theorem mem_blk4 (t : Fin cfg0.N) (I : S32x2048x2048.Idx) :
    I ∈ ((cfg0.win 4).blk t).view.set ↔ ∀ a : Fin 3, win0_4.index t a * S1x256x2048.size a ≤ (I a).val ∧ (I a).val < win0_4.index t a * S1x256x2048.size a + S1x256x2048.size a := by
  show I ∈ ((View.whole main_v0_1).slice (win0_4.rect t)).set ↔ _
  rw [View.set_slice_whole, Rect.mem_set_unit]
  exact Iff.rfl

/-- An index of the output is in a point's block iff each coordinate is in the block's range on its axis. -/
theorem mem_blk3 (t : Fin cfg0.N) (I : S32x2048x128.Idx) :
    I ∈ ((cfg0.win 3).blk t).view.set ↔ ∀ a : Fin 3, win0_3.index t a * S1x256x128.size a ≤ (I a).val ∧ (I a).val < win0_3.index t a * S1x256x128.size a + S1x256x128.size a := by
  show I ∈ ((View.whole main_v0_0).slice (win0_3.rect t)).set ↔ _
  rw [View.set_slice_whole, Rect.mem_set_unit]
  exact Iff.rfl

/-- Every index (b, r, j) of the weights is in the block of the point at batch `b` and row block r / 256: 256·(r / 256) ≤ r
    < 256·(r / 256) + 256, and the block spans the whole key axis. -/
theorem covered4 (I : S32x2048x2048.Idx) :
    ∃ t : Fin cfg0.N, (cfg0.win 4).flush t = true ∧ I ∈ ((cfg0.win 4).blk t).view.set := by
  have hI0 : (I 0).val < 32 := (I 0).isLt
  have hI1 : (I 1).val < 2048 := (I 1).isLt
  have hI2 : (I 2).val < 2048 := (I 2).isLt
  obtain ⟨t, ht⟩ := blockIndex_onto ⟨(I 0).val, hI0⟩ ⟨(I 1).val / 256, by omega⟩
  have q0 : win0_4.index t (0 : Fin 3) = (I 0).val := congrFun ht 0
  have q1 : win0_4.index t (1 : Fin 3) = (I 1).val / 256 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (I 0).val ∧ (I 0).val < win0_4.index t (0 : Fin 3) * 1 + 1; omega
  | ⟨1, _⟩ => show win0_4.index t (1 : Fin 3) * 256 ≤ (I 1).val ∧ (I 1).val < win0_4.index t (1 : Fin 3) * 256 + 256; omega
  | ⟨2, _⟩ => show win0_4.index t (2 : Fin 3) * 2048 ≤ (I 2).val ∧ (I 2).val < win0_4.index t (2 : Fin 3) * 2048 + 2048; omega

/-- Every index (b, r, d) of the output is in the block of the same point (the output's blocks sit where the weights' do on
    the batch and row axes), which spans the whole feature axis. -/
theorem covered3 (I : S32x2048x128.Idx) :
    ∃ t : Fin cfg0.N, (cfg0.win 3).flush t = true ∧ I ∈ ((cfg0.win 3).blk t).view.set := by
  have hI0 : (I 0).val < 32 := (I 0).isLt
  have hI1 : (I 1).val < 2048 := (I 1).isLt
  have hI2 : (I 2).val < 128 := (I 2).isLt
  obtain ⟨t, ht⟩ := blockIndex_onto ⟨(I 0).val, hI0⟩ ⟨(I 1).val / 256, by omega⟩
  have q0 : win0_4.index t (0 : Fin 3) = (I 0).val := congrFun ht 0
  have q1 : win0_4.index t (1 : Fin 3) = (I 1).val / 256 := congrFun ht 1
  obtain ⟨-, -, -, -, -, -, -, -, -, e30, e31, e32, -⟩ := blockIndex_facts t
  refine ⟨t, flush0_3 t, ?_⟩
  rw [mem_blk3]
  intro a
  match a with
  | ⟨0, _⟩ => show win0_3.index t (0 : Fin 3) * 1 ≤ (I 0).val ∧ (I 0).val < win0_3.index t (0 : Fin 3) * 1 + 1; omega
  | ⟨1, _⟩ => show win0_3.index t (1 : Fin 3) * 256 ≤ (I 1).val ∧ (I 1).val < win0_3.index t (1 : Fin 3) * 256 + 256; omega
  | ⟨2, _⟩ => show win0_3.index t (2 : Fin 3) * 128 ≤ (I 2).val ∧ (I 2).val < win0_3.index t (2 : Fin 3) * 128 + 128; omega

/-! ## The two result arrays after the run -/

/-- THE WEIGHTS after the run: every point wrote its block of `attnW` of the arguments and the blocks cover the array, so
    the array is `attnW` of the arguments. -/
theorem final4 (c : Dev nD) :
    (dats m 0 c).arrAt 4 cfg0.N = Cert.Wta.attnW (m ((c : Thread nD τ).loc main_arg0)) (m ((c : Thread nD τ).loc main_arg1)) :=
  (dats m 0 c).arrAt_eq_of_cover 4 (Cert.Wta.attnW (V m c main_arg0) (V m c main_arg1)) (fun t _ => flushed4_eq m c t) covered4

/-- THE OUTPUT after the run: likewise `attnO` of the arguments. -/
theorem final3 (c : Dev nD) :
    (dats m 0 c).arrAt 3 cfg0.N = Cert.Wta.attnO (m ((c : Thread nD τ).loc main_arg0)) (m ((c : Thread nD τ).loc main_arg1)) (m ((c : Thread nD τ).loc main_arg2)) :=
  (dats m 0 c).arrAt_eq_of_cover 3 (Cert.Wta.attnO (V m c main_arg0) (V m c main_arg1) (V m c main_arg2)) (fun t _ => flushed3_eq m c t) covered3

/-- The kernel's run with both result arrays named as functions of the arguments. -/
theorem run : θ_run defs (onTc (τ := τ) (main (F := Ideal))) ⟨m, fun _ => 0, ρ⟩ fun r => ∀ c : Dev nD,
      r.2.mem ((c : Thread nD τ).loc main_v0_0) = Cert.Wta.attnO (m ((c : Thread nD τ).loc main_arg0)) (m ((c : Thread nD τ).loc main_arg1)) (m ((c : Thread nD τ).loc main_arg2))
      ∧ r.2.mem ((c : Thread nD τ).loc main_v0_1) = Cert.Wta.attnW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.AttnBlocks

end
-- ==== Proof.lean ====
/-
  Winner-take-all attention: for every batch and query row, the softmax of the row's scaled scores against all 2048 keys,
  every entry but the row's maximum zeroed, and that row of weights against the values.

  The kernel tiles the query rows 256 at a time and keeps a batch's keys and values whole; the reference works on whole
  arrays. Both compute, for each query row, the same function of the row of scores (Proof/RowWta.lean: `wta`), and the two
  rows of scores are equal: the kernel multiplies the dot product by a scale named 1048576/11863283, the reference divides it
  by the binary number 11863283/1048576 (`Cert.Wta.scale_eq`). So each result array is one function of the argument arrays
  (`attnO`, `attnW`): the kernel's by its blocks (Proof/KernelRows.lean, Proof/Blocks.lean), the reference's operation by
  operation (Proof/RefRows.lean). No step needs the inputs finite.
-/
import proofs.«115531_j15857019257096_1_alg».proof.Defs
import proofs.«115531_j15857019257096_1_alg».proof.Proof.Gen.Kernel
import proofs.«115531_j15857019257096_1_alg».proof.Proof.Gen.Kernel.Skeleton
import proofs.«115531_j15857019257096_1_alg».proof.Proof.Gen.Kernel.Launch
import proofs.«115531_j15857019257096_1_alg».proof.Proof.Gen.Kernel.Points
import proofs.«115531_j15857019257096_1_alg».proof.Proof.Gen.Kernel.Frame
import proofs.«115531_j15857019257096_1_alg».proof.Proof.Gen.KernelIdeal
import proofs.«115531_j15857019257096_1_alg».proof.Proof.Gen.KernelIdeal.Skeleton
import proofs.«115531_j15857019257096_1_alg».proof.Proof.Gen.KernelIdeal.Launch
import proofs.«115531_j15857019257096_1_alg».proof.Proof.Gen.KernelIdeal.Points
import proofs.«115531_j15857019257096_1_alg».proof.Proof.Gen.KernelIdeal.Frame
import proofs.«115531_j15857019257096_1_alg».proof.Proof.Gen.ReferenceIdeal
import proofs.«115531_j15857019257096_1_alg».proof.Proof.Gen.Pre_finite_inputs
import proofs.«115531_j15857019257096_1_alg».proof.Proof.Gen.KernelIdeal.Value
import proofs.«115531_j15857019257096_1_alg».proof.Proof.Gen.ReferenceIdeal.Run
import proofs.«115531_j15857019257096_1_alg».proof.Proof.Gen.ReferenceIdeal.Read
import Idealize.ShloMosaic.Adequacy
import Idealize.ShloMosaic.Init

import proofs.«115531_j15857019257096_1_alg».proof.Proof.RowWta
import proofs.«115531_j15857019257096_1_alg».proof.Proof.RefRows
import proofs.«115531_j15857019257096_1_alg».proof.Proof.Blocks

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the scale's word is named, and the name denotes 1048576/11863283. -/
theorem preserves : Cert.preserves_Kernel_KernelIdeal :=
  IdealRules.named_const.statement Cert.KernelIdeal.κ "inv_temper" .f32 0x3DB504F3#32 ((1048576 / 11863283 : ℝ) : EReal) rfl

/-- Both programs end with the output at `attnO` and the weights at `attnW` of the (agreeing) argument arrays. -/
theorem algebraic : Cert.algebraic_KernelIdeal_ReferenceIdeal := by
  intro m ρ m' ρ' _ hagree
  refine ⟨_, _, Cert.KernelIdeal.AttnBlocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.Rows.ref_out,
      (hagree c).1, (hagree c).2.1, (hagree c).2.2]
  · rw [(h c).2.1, Cert.ReferenceIdeal.Read.val_main_v19_eq, Cert.ReferenceIdeal.Rows.ref_attn,
      (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
